-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x200 : Shape := ⟨2, ![4096, 200]⟩
abbrev S1000000x64 : Shape := ⟨2, ![1000000, 64]⟩
abbrev S1000000 : Shape := ⟨1, ![1000000]⟩
abbrev S1x64 : Shape := ⟨2, ![1, 64]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S1000000 .f32) (main_arg8 : FVec F S1x64 .f32) (main_arg9 : FVec F S1 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S1000000 .f32 := Host.absf main_arg7
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S1x64 .f32 := Host.absf main_arg8
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S4096 32) (main_arg1 : IVec S4096 32) (main_arg2 : IVec S4096x200 32) (main_arg3 : FVec F S1000000x64 .f32) (main_arg4 : FVec F S1000000x64 .f32) (main_arg5 : FVec F S1000000x64 .f32) (main_arg6 : FVec F S1000000 .f32) (main_arg7 : FVec F S1000000 .f32) (main_arg8 : FVec F S1x64 .f32) (main_arg9 : FVec F S1 .f32) : IVec S_ 1 :=
  let main_v0 : FVec F S1000000x64 .f32 := Host.absf main_arg3
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg4
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x64 .f32 := Host.absf main_arg5
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S1000000 .f32 := Host.absf main_arg6
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg7 main_arg8 main_arg9 main_v13 main_v16
-- ==== Kernel.lean ====
abbrev S4096 : Shape := ⟨1, ![4096]⟩
abbrev S4096x200 : Shape := ⟨2, ![4096, 200]⟩
abbrev S1000000x64 : Shape := ⟨2, ![1000000, 64]⟩
abbrev S1000000 : Shape := ⟨1, ![1000000]⟩
abbrev S1x64 : Shape := ⟨2, ![1, 64]⟩
abbrev S1 : Shape := ⟨1, ![1]⟩
abbrev S_ : Shape := ⟨0, ![]⟩
abbrev S4096x1 : Shape := ⟨2, ![4096, 1]⟩
abbrev S4096x64 : Shape := ⟨2, ![4096, 64]⟩
abbrev S4096x200x1 : Shape := ⟨3, ![4096, 200, 1]⟩
abbrev S4096x200x64 : Shape := ⟨3, ![4096, 200, 64]⟩
abbrev S2048x64 : Shape := ⟨2, ![2048, 64]⟩
abbrev S2048x1 : Shape := ⟨2, ![2048, 1]⟩
abbrev S2048 : Shape := ⟨1, ![2048]⟩

abbrev nBuf : Space → Nat
  | .hbm => 70
  | .vmem => 11
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096x200, .i32⟩
  | .hbm, ⟨3, _⟩ => ⟨S1000000x64, .f32⟩
  | .hbm, ⟨4, _⟩ => ⟨S1000000x64, .f32⟩
  | .hbm, ⟨5, _⟩ => ⟨S1000000x64, .f32⟩
  | .hbm, ⟨6, _⟩ => ⟨S1000000, .f32⟩
  | .hbm, ⟨7, _⟩ => ⟨S1000000, .f32⟩
  | .hbm, ⟨8, _⟩ => ⟨S1x64, .f32⟩
  | .hbm, ⟨9, _⟩ => ⟨S1, .f32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x64, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096x64, .f32⟩
  | .hbm, ⟨28, _⟩ => ⟨S_, .i32⟩
  | .hbm, ⟨29, _⟩ => ⟨S4096x200, .i32⟩
  | .hbm, ⟨30, _⟩ => ⟨S4096x200, .i1⟩
  | .hbm, ⟨31, _⟩ => ⟨S_, .i32⟩
  | .hbm, ⟨32, _⟩ => ⟨S4096x200, .i32⟩
  | .hbm, ⟨33, _⟩ => ⟨S4096x200, .i32⟩
  | .hbm, ⟨34, _⟩ => ⟨S4096x200, .i32⟩
  | .hbm, ⟨35, _⟩ => ⟨S4096x200x1, .i32⟩
  | .hbm, ⟨36, _⟩ => ⟨S4096x200x64, .f32⟩
  | .hbm, ⟨37, _⟩ => ⟨S_, .f32⟩
  | .hbm, ⟨38, _⟩ => ⟨S4096x64, .f32⟩
  | .hbm, ⟨39, _⟩ => ⟨S_, .f32⟩
  | .hbm, ⟨40, _⟩ => ⟨S_, .f32⟩
  | .hbm, ⟨41, _⟩ => ⟨S4096x64, .f32⟩
  | .hbm, ⟨42, _⟩ => ⟨S4096x64, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096, .f32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1, .f32⟩
  | .hbm, ⟨69, _⟩ => ⟨S4096x1, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x1, .f32⟩
  | .local _ .vmem, ⟨7, _⟩ => ⟨S2048x1, .f32⟩
  | .local _ .vmem, ⟨8, _⟩ => ⟨S1x64, .f32⟩
  | .local _ .vmem, ⟨9, _⟩ => ⟨S2048x1, .f32⟩
  | .local _ .vmem, ⟨10, _⟩ => ⟨S2048x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  reducesTo_S4096x200x64_S4096x64_d1 : S4096x200x64.ReducesTo [1] S4096x64
  h_S_ : 0 < S_.numel
  bcast_S_S4096x64 : S_.BroadcastsInDim S4096x64 (![] : Fin 0 → Fin S4096x64.rank)
  shapeCasts_S1_S_ : S1.ShapeCasts S_
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  broadcasts_S1x64_S2048x64 : S1x64.Broadcasts S2048x64
  reduces_S2048x64_S2048 : S2048x64.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  gather_S1000000x64_S4096x1_S4096x64_1_0_n_n_0_1_164_wf : GatherDims.WF S1000000x64 S4096x1 S4096x64 [1] [0] [] [0] [] 1 ![1, 64]
  gather_S1000000x64_S4096x200x1_S4096x200x64_2_0_n_n_0_2_164_wf : GatherDims.WF S1000000x64 S4096x200x1 S4096x200x64 [2] [0] [] [0] [] 2 ![1, 64]
  gather_S1000000_S4096x1_S4096_n_0_n_n_0_1_1_wf : GatherDims.WF S1000000 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S4096x64.size a
  hwx0_0 : ∀ i : grid0.Coords, EltTy.bits .f32 = 32 ∨ (Rect.block (s := S4096x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S4096x64.size a
  hwx0_1 : ∀ i : grid0.Coords, EltTy.bits .f32 = 32 ∨ (Rect.block (s := S4096x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S4096x64.size a
  hwx0_2 : ∀ i : grid0.Coords, EltTy.bits .f32 = 32 ∨ (Rect.block (s := S4096x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .f32 = 32 ∨ (Rect.block (s := S4096x1) S2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S4096x1.size a
  hwx0_5 : ∀ i : grid0.Coords, EltTy.bits .f32 = 32 ∨ (Rect.block (s := S4096x1) S2048x1.size (cc0_transform_5 i) (hinb0_5 i)).WholeWords (EltTy.packing .f32)

variable [Facts₀]

def gather_S1000000x64_S4096x1_S4096x64_1_0_n_n_0_1_164 : GatherDims S1000000x64 S4096x1 S4096x64 where
  offsetDims := [1]
  collapsedSliceDims := [0]
  operandBatchingDims := []
  startIndicesBatchingDims := []
  startIndexMap := [0]
  indexVectorDim := 1
  sliceSizes := ![1, 64]
  wf := gather_S1000000x64_S4096x1_S4096x64_1_0_n_n_0_1_164_wf
def gather_S1000000x64_S4096x200x1_S4096x200x64_2_0_n_n_0_2_164 : GatherDims S1000000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000000x64_S4096x200x1_S4096x200x64_2_0_n_n_0_2_164_wf
def gather_S1000000_S4096x1_S4096_n_0_n_n_0_1_1 : GatherDims S1000000 S4096x1 S4096 where
  offsetDims := []
  collapsedSliceDims := [0]
  operandBatchingDims := []
  startIndicesBatchingDims := []
  startIndexMap := [0]
  indexVectorDim := 1
  sliceSizes := ![1]
  wf := gather_S1000000_S4096x1_S4096_n_0_n_n_0_1_1_wf

abbrev win0_0 : Pipeline.Window sig grid0 :=
  Pipeline.Window.ofSpec (Memref.whole main_v6) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096 : Shape := ⟨1, ![4096]⟩
abbrev S4096x200 : Shape := ⟨2, ![4096, 200]⟩
abbrev S1000000x64 : Shape := ⟨2, ![1000000, 64]⟩
abbrev S1000000 : Shape := ⟨1, ![1000000]⟩
abbrev S1x64 : Shape := ⟨2, ![1, 64]⟩
abbrev S1 : Shape := ⟨1, ![1]⟩
abbrev S_ : Shape := ⟨0, ![]⟩
abbrev S4096x1 : Shape := ⟨2, ![4096, 1]⟩
abbrev S4096x64 : Shape := ⟨2, ![4096, 64]⟩
abbrev S4096x200x1 : Shape := ⟨3, ![4096, 200, 1]⟩
abbrev S4096x200x64 : Shape := ⟨3, ![4096, 200, 64]⟩
abbrev S64x1 : Shape := ⟨2, ![64, 1]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096x200, .i32⟩
  | .hbm, ⟨3, _⟩ => ⟨S1000000x64, .f32⟩
  | .hbm, ⟨4, _⟩ => ⟨S1000000x64, .f32⟩
  | .hbm, ⟨5, _⟩ => ⟨S1000000x64, .f32⟩
  | .hbm, ⟨6, _⟩ => ⟨S1000000, .f32⟩
  | .hbm, ⟨7, _⟩ => ⟨S1000000, .f32⟩
  | .hbm, ⟨8, _⟩ => ⟨S1x64, .f32⟩
  | .hbm, ⟨9, _⟩ => ⟨S1, .f32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x64, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096x64, .f32⟩
  | .hbm, ⟨28, _⟩ => ⟨S_, .i32⟩
  | .hbm, ⟨29, _⟩ => ⟨S4096x200, .i32⟩
  | .hbm, ⟨30, _⟩ => ⟨S4096x200, .i1⟩
  | .hbm, ⟨31, _⟩ => ⟨S_, .i32⟩
  | .hbm, ⟨32, _⟩ => ⟨S4096x200, .i32⟩
  | .hbm, ⟨33, _⟩ => ⟨S4096x200, .i32⟩
  | .hbm, ⟨34, _⟩ => ⟨S4096x200, .i32⟩
  | .hbm, ⟨35, _⟩ => ⟨S4096x200x1, .i32⟩
  | .hbm, ⟨36, _⟩ => ⟨S4096x200x64, .f32⟩
  | .hbm, ⟨37, _⟩ => ⟨S_, .f32⟩
  | .hbm, ⟨38, _⟩ => ⟨S4096x64, .f32⟩
  | .hbm, ⟨39, _⟩ => ⟨S_, .f32⟩
  | .hbm, ⟨40, _⟩ => ⟨S_, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x64, .f32⟩
  | .hbm, ⟨45, _⟩ => ⟨S64x1, .f32⟩
  | .hbm, ⟨46, _⟩ => ⟨S4096x1, .f32⟩
  | .hbm, ⟨47, _⟩ => ⟨S1x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096, .f32⟩
  | .hbm, ⟨62, _⟩ => ⟨S4096x1, .f32⟩
  | .hbm, ⟨63, _⟩ => ⟨S4096x1, .f32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S4096x1, .i32⟩
  | .hbm, ⟨72, _⟩ => ⟨S4096, .f32⟩
  | .hbm, ⟨73, _⟩ => ⟨S4096x1, .f32⟩
  | .hbm, ⟨74, _⟩ => ⟨S4096x1, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  reducesTo_S4096x200x64_S4096x64_d1 : S4096x200x64.ReducesTo [1] S4096x64
  h_S_ : 0 < S_.numel
  bcast_S_S4096x64 : S_.BroadcastsInDim S4096x64 (![] : Fin 0 → Fin S4096x64.rank)
  transposes_S1x64_S64x1_1_0 : S1x64.Transposes [1, 0] S64x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  gather_S1000000x64_S4096x1_S4096x64_1_0_n_n_0_1_164_wf : GatherDims.WF S1000000x64 S4096x1 S4096x64 [1] [0] [] [0] [] 1 ![1, 64]
  gather_S1000000x64_S4096x200x1_S4096x200x64_2_0_n_n_0_2_164_wf : GatherDims.WF S1000000x64 S4096x200x1 S4096x200x64 [2] [0] [] [0] [] 2 ![1, 64]
  dot_S4096x64_S64x1_S4096x1_1_0_0_1_n_n_wf : DotDims.WF S4096x64 S64x1 S4096x1 [1] [0] [0] [1] [] []
  gather_S1000000_S4096x1_S4096_n_0_n_n_0_1_1_wf : GatherDims.WF S1000000 S4096x1 S4096 [] [0] [] [0] [] 1 ![1]

variable [Facts₀]

def gather_S1000000x64_S4096x1_S4096x64_1_0_n_n_0_1_164 : GatherDims S1000000x64 S4096x1 S4096x64 where
  offsetDims := [1]
  collapsedSliceDims := [0]
  operandBatchingDims := []
  startIndicesBatchingDims := []
  startIndexMap := [0]
  indexVectorDim := 1
  sliceSizes := ![1, 64]
  wf := gather_S1000000x64_S4096x1_S4096x64_1_0_n_n_0_1_164_wf
def gather_S1000000x64_S4096x200x1_S4096x200x64_2_0_n_n_0_2_164 : GatherDims S1000000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000000x64_S4096x200x1_S4096x200x64_2_0_n_n_0_2_164_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def gather_S1000000_S4096x1_S4096_n_0_n_n_0_1_1 : GatherDims S1000000 S4096x1 S4096 where
  offsetDims := []
  collapsedSliceDims := [0]
  operandBatchingDims := []
  startIndicesBatchingDims := []
  startIndexMap := [0]
  indexVectorDim := 1
  sliceSizes := ![1]
  wf := gather_S1000000_S4096x1_S4096_n_0_n_n_0_1_1_wf

class Facts : Prop extends Facts₀ where

variable [Facts]
-- ==== Proof.Rating.lean ====
/-
  The predicted rating of one (user, item) pair, as a function of arrays over the extended reals.

  For a batch row `r`, with `p r d` the user's latent vector, `q r d` the implicit-feedback vector
  (the history sum over the square root of the history length) and `v r d` the item's latent vector,
  the rating is the affine read-out of the elementwise product

      rating r = (∑ d, (p r d + q r d) · v r d · w d) + (bu r + bi r + b + μ)

  with `w` the read-out weights, `bu`, `bi` the gathered user and item biases, `b` the read-out
  bias and `μ` the global mean.  The two programs compared add the four bias terms in different orders;
  on the extended reals addition is commutative and associative (⊥ absorbs), so the regrouping holds at
  every value, infinite ones included (`bias_regroup`).
-/
import Idealize.ShloMosaic.Lib.ValueIdx
import Idealize.ShloMosaic.PureOps.Ideal

noncomputable section

open scoped BigOperators

namespace Cert.Rating

open Idealize.ShloMosaic Idealize.ShloMosaic.ValueIdx

/-- The rating of batch row `r`: the weighted sum over the 64 latent coordinates of
    `(p + q) · v`, plus the four bias terms grouped as the kernel's wrapper groups them. -/
def rowRating (p q v : (⟨2, ![4096, 64]⟩ : Shape).Idx → EReal) (w : (⟨2, ![1, 64]⟩ : Shape).Idx → EReal)
    (bu bi : (⟨1, ![4096]⟩ : Shape).Idx → EReal) (b μ : EReal) (r : Fin 4096) : EReal :=
  (∑ d : Fin 64, (p (ix2 r d) + q (ix2 r d)) * v (ix2 r d) * w (ix2 (0 : Fin 1) d))
    + (bu (ix1 r) + bi (ix1 r) + b + μ)

/-- The whole result array, one column of 4096 ratings. -/
def rating (p q v : (⟨2, ![4096, 64]⟩ : Shape).Idx → EReal) (w : (⟨2, ![1, 64]⟩ : Shape).Idx → EReal)
    (bu bi : (⟨1, ![4096]⟩ : Shape).Idx → EReal) (b μ : EReal) : (⟨2, ![4096, 1]⟩ : Shape).Idx → EReal :=
  fun i => rowRating p q v w bu bi b μ ⟨(i 0).val, (i 0).isLt⟩

/-- Adding the read-out bias, the global mean and the two gathered biases one after the other to a sum `s`
    is adding their total, whatever the order: only commutativity and associativity of `+` on the
    extended reals. -/
theorem bias_regroup (s b μ u v : EReal) : s + b + μ + u + v = s + (u + v + b + μ) := by
  ac_rfl

end Cert.Rating

end
-- ==== Proof.RefRating.lean ====
/-
  The reference program's result is the rating.

  Read one operation at a time (the generated read-at-an-index lemmas), entry `(r, 0)` of the reference's result is

      ((((∑ k, ((p r k + q r k) · v r k) · wᵀ k 0) + b) + μ) + bu r) + bi r

  where `p`, `q`, `v`, `bu`, `bi` are the reference's own gathered stages (kept whole: the gathers are never
  opened), `wᵀ k 0 = w 0 k` is the transposed read-out row, `b` the read-out bias broadcast down the column and
  `μ` the constant 3.5.  Regrouping the four added terms (`Cert.Rating.bias_regroup`) gives `Cert.Rating.rating`.
-/
import proofs.«407625_j49108656062664_3_alg».proof.Proof.Gen.ReferenceIdeal.Read
import proofs.«407625_j49108656062664_3_alg».proof.Proof.Rating

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's last stage, as a function of the ten arguments, is the rating of its gathered stages:
    the user rows, the scaled history sums, the item rows, the read-out row, the two gathered biases,
    the read-out bias and the global mean. -/
theorem ref_is_rating (x0 x1 : (⟨S4096, .i32⟩ : BufTy).Contents (Elt Ideal)) (x2 : (⟨S4096x200, .i32⟩ : BufTy).Contents (Elt Ideal))
    (x3 x4 x5 : (⟨S1000000x64, .f32⟩ : BufTy).Contents (Elt Ideal)) (x6 x7 : (⟨S1000000, .f32⟩ : BufTy).Contents (Elt Ideal))
    (x8 : (⟨S1x64, .f32⟩ : BufTy).Contents (Elt Ideal)) (x9 : (⟨S1, .f32⟩ : BufTy).Contents (Elt Ideal)) :
    val_main_v51 (F := Ideal) x0 x1 x2 x3 x4 x5 x6 x7 x8 x9
      = Cert.Rating.rating (val_main_v6 (F := Ideal) x0 x3) (val_main_v24 (F := Ideal) x2 x5) (val_main_v13 (F := Ideal) x1 x4) x8
          (val_main_v40 (F := Ideal) x0 x6) (val_main_v49 (F := Ideal) x1 x7) (x9 (ix1 (0 : Fin 1))) (Ideal.ofBits .f32 0x40600000#32) := by
  funext i
  -- the indices the layout operations read, by coordinates
  have hl : ∀ k : Fin 64, lidx_main_v28 i k = ix2 (⟨(i 0).val, (i 0).isLt⟩ : Fin 4096) k := fun k =>
    funext fun a => by match a with | ⟨0, _⟩ => rfl | ⟨1, _⟩ => rfl
  have hr : ∀ k : Fin 64, idx_main_v27 (ridx_main_v28 i k) = ix2 (0 : Fin 1) k := fun k =>
    funext fun a => by
      match a with
      | ⟨0, _⟩ => exact Subsingleton.elim (α := Fin 1) _ _
      | ⟨1, _⟩ => rfl
  have hb : idx_main_v29 (idx_main_v30 i) = ix1 (0 : Fin 1) :=
    funext fun a => by match a with | ⟨0, _⟩ => rfl
  have hu : idx_main_v41 i = ix1 (⟨(i 0).val, (i 0).isLt⟩ : Fin 4096) :=
    funext fun a => by match a with | ⟨0, _⟩ => rfl
  have hv : idx_main_v50 i = ix1 (⟨(i 0).val, (i 0).isLt⟩ : Fin 4096) :=
    funext fun a => by match a with | ⟨0, _⟩ => rfl
  rw [val_main_v51_apply, val_main_v42_apply, val_main_v33_apply, val_main_v31_apply, val_main_v28_apply,
    val_main_v50_apply, val_main_v41_apply, val_main_v32_apply, val_main_v30_apply, val_main_v29_apply,
    val_main_cst_6_apply, hb, hu, hv]
  simp only [val_main_v26_apply, val_main_v25_apply, val_main_v27_apply, hl, hr,
    Ideal.addf_def, Ideal.mulf_def, Ideal.ofBits_def]
  exact Cert.Rating.bias_regroup _ _ _ _ _

end Cert.ReferenceIdeal.RefValue

end
-- ==== Proof.KernelRow.lean ====
/-
  One entry of the block a grid point writes.

  A grid point holds 2048 batch rows.  From the point's blocks `P0` (user rows), `P1` (scaled history sums),
  `P2` (item rows), `P3` (the read-out row, the same at both points) and `P4` (the bias column), the body leaves at
  row `p` of its one-column output block

      (∑ d, (P0 p d + P1 p d) · P2 p d · P3 0 d) + P4 p 0 :

  the lane sum over the 64 latent coordinates read as a finite sum on the extended reals (its accumulator word is
  the zero word, the sum's neutral element), the identity shape casts dropped, the row broadcast read at its one row.
-/
import proofs.«407625_j49108656062664_3_alg».proof.Proof.Gen.KernelIdeal.Value
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-- Row `p` of the output block, from the point's five input blocks. -/
theorem block_entry (P0 P1 P2 : Vec Ideal S2048x64 .f32) (P3 : Vec Ideal S1x64 .f32) (P4 : Vec Ideal S2048x1 .f32) (p : Fin 2048) :
    Cert.KernelIdeal.Value.E5 (F := Ideal) P0 P1 P2 P3 P4 (ix2 p (0 : Fin 1))
      = (∑ d : Fin 64, (P0 (ix2 p d) + P1 (ix2 p d)) * P2 (ix2 p d) * P3 (ix2 (0 : Fin 1) d)) + P4 (ix2 p (0 : Fin 1)) := by
  show FloatOps.addf (F := Ideal) (multiReduction (F := Ideal) .add [1] S2048 (mulf (F := Ideal) (mulf (F := Ideal) (addf (F := Ideal) (shapeCast S2048x64 P0 shapeCasts_S2048x64_S2048x64) (shapeCast S2048x64 P1 shapeCasts_S2048x64_S2048x64)) (shapeCast S2048x64 P2 shapeCasts_S2048x64_S2048x64)) (broadcastTo S2048x64 P3 broadcasts_S1x64_S2048x64)) 0x00000000#32 reduces_S2048x64_S2048 (.inl rfl) rfl (Cert.KernelIdeal.Value.ix5_0 (ix2 p (0 : Fin 1)))) (P4 (Cert.KernelIdeal.Value.ix5_1 (ix2 p (0 : Fin 1)))) = _
  rw [shapeCast_self, shapeCast_self, shapeCast_self]
  refine congrArg₂ (· + ·) ?_ ?_
  · refine (Ideal.multiReduction_add_single _ 0x00000000#32 reduces_S2048x64_S2048 (.inl rfl) rfl _).trans ?_
    refine Finset.sum_congr rfl fun d _ => ?_
    have hidx : reduces_S2048x64_S2048.lift (Cert.KernelIdeal.Value.ix5_0 (ix2 p (0 : Fin 1))) d = ix2 p (⟨d.val, d.isLt⟩ : Fin 64) :=
      funext fun a => Fin.ext (by match a with | ⟨0, _⟩ => rfl | ⟨1, _⟩ => rfl)
    rw [hidx]
    show (P0 (ix2 p (⟨d.val, d.isLt⟩ : Fin 64)) + P1 (ix2 p (⟨d.val, d.isLt⟩ : Fin 64))) * P2 (ix2 p (⟨d.val, d.isLt⟩ : Fin 64))
        * broadcastTo S2048x64 P3 broadcasts_S1x64_S2048x64 (ix2 p (⟨d.val, d.isLt⟩ : Fin 64)) = _
    rw [broadcastTo_1b_ab_apply]
    rfl
  · exact congrArg P4 (funext fun a => by match a with | ⟨0, _⟩ => rfl | ⟨1, _⟩ => rfl)

end Cert.KernelIdeal.Row

end
-- ==== Proof.KernelBlocks.lean ====
/-
  The blocks a grid point reads.

  The grid has two points; point `t` works on batch rows `2048·t … 2048·t + 2047`.  Each of the four batched
  inputs (user rows, item rows, scaled history sums: 64 columns; the bias column: one column) hands the point
  exactly those rows of its array, all columns; the read-out row is the same single row at both points.
-/
import proofs.«407625_j49108656062664_3_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The batched windows' block index at point `t` is `(t, 0)`; the read-out row's is `(0, 0)`. -/
theorem index_facts (t : Fin cfg0.N) :
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0) := by
  rcases fin_N0 t with rfl | rfl <;> decide

/-- Row `p` of the user-rows block at point `t` is row `2048·t + p` of the gathered user rows. -/
theorem user_block (c : Dev nD) (t : Fin cfg0.N) (p : Fin 2048) (d : Fin 64) (R : Fin 4096) (hR : R.val = 2048 * t.val + p.val) :
    (iblk m c 0 t : Vec Ideal S2048x64 .f32) (ix2 p d) = (V m c main_v6 : S4096x64.Idx → EReal) (ix2 R d) := by
  obtain ⟨⟨e0, e1⟩, -⟩ := index_facts t
  unfold iblk
  rw [View.read_apply]
  show V m c main_v6 _ = V m c main_v6 _
  congr 1
  funext a
  apply Fin.ext
  match a with
  | ⟨0, _⟩ => show win0_0.index t 0 * 2048 + 1 * p.val = R.val; rw [e0, hR]; omega
  | ⟨1, _⟩ => show win0_0.index t 1 * 64 + 1 * d.val = d.val; rw [e1]; omega

/-- Row `p` of the item-rows block at point `t` is row `2048·t + p` of the gathered item rows. -/
theorem item_block (c : Dev nD) (t : Fin cfg0.N) (p : Fin 2048) (d : Fin 64) (R : Fin 4096) (hR : R.val = 2048 * t.val + p.val) :
    (iblk m c 1 t : Vec Ideal S2048x64 .f32) (ix2 p d) = (V m c main_v13 : S4096x64.Idx → EReal) (ix2 R d) := by
  obtain ⟨-, ⟨e0, e1⟩, -⟩ := index_facts t
  unfold iblk
  rw [View.read_apply]
  show V m c main_v13 _ = V m c main_v13 _
  congr 1
  funext a
  apply Fin.ext
  match a with
  | ⟨0, _⟩ => show win0_1.index t 0 * 2048 + 1 * p.val = R.val; rw [e0, hR]; omega
  | ⟨1, _⟩ => show win0_1.index t 1 * 64 + 1 * d.val = d.val; rw [e1]; omega

/-- Row `p` of the history block at point `t` is row `2048·t + p` of the scaled history sums. -/
theorem history_block (c : Dev nD) (t : Fin cfg0.N) (p : Fin 2048) (d : Fin 64) (R : Fin 4096) (hR : R.val = 2048 * t.val + p.val) :
    (iblk m c 2 t : Vec Ideal S2048x64 .f32) (ix2 p d) = (V m c main_v24 : S4096x64.Idx → EReal) (ix2 R d) := by
  obtain ⟨-, -, ⟨e0, e1⟩, -⟩ := index_facts t
  unfold iblk
  rw [View.read_apply]
  show V m c main_v24 _ = V m c main_v24 _
  congr 1
  funext a
  apply Fin.ext
  match a with
  | ⟨0, _⟩ => show win0_2.index t 0 * 2048 + 1 * p.val = R.val; rw [e0, hR]; omega
  | ⟨1, _⟩ => show win0_2.index t 1 * 64 + 1 * d.val = d.val; rw [e1]; omega

/-- Row `p` of the bias block at point `t` is row `2048·t + p` of the bias column. -/
theorem bias_block (c : Dev nD) (t : Fin cfg0.N) (p : Fin 2048) (R : Fin 4096) (hR : R.val = 2048 * t.val + p.val) :
    (iblk m c 3 t : Vec Ideal S2048x1 .f32) (ix2 p (0 : Fin 1)) = (V m c main_v45 : S4096x1.Idx → EReal) (ix2 R (0 : Fin 1)) := by
  obtain ⟨-, -, -, ⟨e0, e1⟩, -⟩ := index_facts t
  unfold iblk
  rw [View.read_apply]
  show V m c main_v45 _ = V m c main_v45 _
  congr 1
  funext a
  apply Fin.ext
  match a with
  | ⟨0, _⟩ => show win0_3.index t 0 * 2048 + 1 * p.val = R.val; rw [e0, hR]; omega
  | ⟨1, _⟩ => show win0_3.index t 1 * 1 + 1 * 0 = 0; rw [e1]

/-- The read-out block is the read-out row itself, at every point. -/
theorem weight_block (c : Dev nD) (t : Fin cfg0.N) (d : Fin 64) :
    (iblk m c 4 t : Vec Ideal S1x64 .f32) (ix2 (0 : Fin 1) d) = (V m c main_arg8 : S1x64.Idx → EReal) (ix2 (0 : Fin 1) d) := by
  obtain ⟨-, -, -, -, ⟨e0, e1⟩, -⟩ := index_facts t
  unfold iblk
  rw [View.read_apply]
  show V m c main_arg8 _ = V m c main_arg8 _
  congr 1
  funext a
  apply Fin.ext
  match a with
  | ⟨0, _⟩ => show win0_4.index t 0 * 1 + 1 * 0 = 0; rw [e0]
  | ⟨1, _⟩ => show win0_4.index t 1 * 64 + 1 * d.val = d.val; rw [e1]; omega

end Cert.KernelIdeal.Blocks

end
-- ==== Proof.KernelInputs.lean ====
/-
  What the region finds in its input arrays.

  Before the call the wrapper gathers the user rows, the item rows and the history rows, sums the history rows
  and divides by the square root of the history length — operation for operation what the reference does first.
  So the three arrays the region stages are, as functions of the arguments, the reference's own stages: the
  composed terms are the same, symbol by symbol, once both programs' shape records are unfolded.  The gathers
  themselves are never opened.
-/
import proofs.«407625_j49108656062664_3_alg».proof.Proof.Gen.KernelIdeal.Frame
import proofs.«407625_j49108656062664_3_alg».proof.Proof.Gen.ReferenceIdeal.Read
import Idealize.ShloMosaic.Lib.StableHlo.Run

noncomputable section

namespace Cert.KernelIdeal.Inputs

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 4000000 in
/-- The user rows: `user_emb` gathered at the wrapped `user_idx`. -/
theorem user_rows (c : Dev nD) : V m c main_v6
    = Cert.ReferenceIdeal.Read.val_main_v6 (F := Ideal) (m ((c : Thread nD τ).loc main_arg0)) (m ((c : Thread nD τ).loc main_arg3)) := by
  dsimp only [Gen.V, Gen.hostOps0]
  after_results
  rfl

set_option maxRecDepth 8192 in
set_option maxHeartbeats 4000000 in
/-- The item rows: `item_emb` gathered at the wrapped `item_idx`. -/
theorem item_rows (c : Dev nD) : V m c main_v13
    = Cert.ReferenceIdeal.Read.val_main_v13 (F := Ideal) (m ((c : Thread nD τ).loc main_arg1)) (m ((c : Thread nD τ).loc main_arg4)) := by
  dsimp only [Gen.V, Gen.hostOps0]
  after_results
  rfl

set_option maxRecDepth 8192 in
set_option maxHeartbeats 4000000 in
/-- The implicit-feedback vectors: the history rows of `yj` summed, over the square root of the history length. -/
theorem history_rows (c : Dev nD) : V m c main_v24
    = Cert.ReferenceIdeal.Read.val_main_v24 (F := Ideal) (m ((c : Thread nD τ).loc main_arg2)) (m ((c : Thread nD τ).loc main_arg5)) := by
  dsimp only [Gen.V, Gen.hostOps0]
  after_results
  rfl

end Cert.KernelIdeal.Inputs

end
-- ==== Proof.KernelBias.lean ====
/-
  The bias column.

  The wrapper folds the four per-row scalar terms into one column before the call: the gathered user bias plus the
  gathered item bias, plus the read-out bias (the one-element array reshaped to a scalar and spread over the rows),
  plus the global mean 3.5, the sum then laid out as a [4096, 1] column.  Read at row `R` it is

      bu R + bi R + b + μ,

  and the two gathered arrays are, as terms, the reference's own gathered stages.
-/
import proofs.«407625_j49108656062664_3_alg».proof.Proof.Gen.KernelIdeal.Frame
import proofs.«407625_j49108656062664_3_alg».proof.Proof.Gen.ReferenceIdeal.Read
import Idealize.ShloMosaic.Lib.StableHlo.Run
import Idealize.ShloMosaic.Lib.ValueIdx
import Idealize.ShloMosaic.Lib.IdealHost
import Idealize.ShloMosaic.Lib.Pipeline.Value

noncomputable section

namespace Cert.KernelIdeal.Bias

open Cert.KernelIdeal Cert.KernelIdeal.Gen Idealize.ShloMosaic Idealize.ShloMosaic.TcCoe Idealize.SL.Sem Idealize.ShloMosaic.StableHlo
open Idealize.ShloMosaic.ValueIdx

/-- The column the wrapper builds from the two gathered bias arrays and the read-out bias. -/
def column (bu bi : FVec Ideal S4096 .f32) (b : FVec Ideal S1 .f32) : FVec Ideal S4096x1 .f32 :=
  broadcastInDim S4096x1 ![0] bcast_S4096_S4096x1_0
    (addf (F := Ideal) (addf (F := Ideal) (addf (F := Ideal) bu bi)
        (broadcastInDim S4096 ![] bcast_S_S4096 (fun i => shapeCast S_ b shapeCasts_S1_S_ i)))
      (broadcastInDim S4096 ![] bcast_S_S4096 (constant (F := Ideal) S_ .f32 0x40600000#32)))

/-- The column at row `R`: the two gathered biases, the read-out bias and the global mean, added in that order. -/
theorem column_apply (bu bi : FVec Ideal S4096 .f32) (b : FVec Ideal S1 .f32) (R : Fin 4096) :
    column bu bi b (ix2 R (0 : Fin 1)) = bu (ix1 R) + bi (ix1 R) + b (ix1 (0 : Fin 1)) + Ideal.ofBits .f32 0x40600000#32 := by
  unfold column
  refine (broadcastInDim_apply _ bcast_S4096_S4096x1_0 _ (ix2 R (0 : Fin 1)) (ix1 R) (fun a => match a with
    | ⟨0, _⟩ => by show R.val = if (4096 : Nat) = 1 then 0 else R.val; rw [if_neg (by decide)])).trans ?_
  rw [addf_apply, addf_apply, addf_apply, broadcastInDim_scalar_apply, broadcastInDim_scalar_apply, constant_apply]
  refine congrArg (fun z => bu (ix1 R) + bi (ix1 R) + z + Ideal.ofBits .f32 0x40600000#32) ?_
  exact shapeCast_apply b shapeCasts_S1_S_ ix0 (ix1 (0 : Fin 1))
    (by rw [Shape.rowMajor_val_one]; exact (Shape.rowMajorPi_zero _ _).symm)

variable (m : (ℓ : Loc nD τ sig) → Buf (Elt Ideal) ℓ)

set_option maxRecDepth 8192 in
set_option maxHeartbeats 4000000 in
/-- What the region finds in its bias array: the column of the reference's two gathered bias stages and the
    read-out bias. -/
theorem bias_column (c : Dev nD) : V m c main_v45
    = column (Cert.ReferenceIdeal.Read.val_main_v40 (F := Ideal) (m ((c : Thread nD τ).loc main_arg0)) (m ((c : Thread nD τ).loc main_arg6)))
        (Cert.ReferenceIdeal.Read.val_main_v49 (F := Ideal) (m ((c : Thread nD τ).loc main_arg1)) (m ((c : Thread nD τ).loc main_arg7)))
        (m ((c : Thread nD τ).loc main_arg9)) := by
  dsimp only [Gen.V, Gen.hostOps0]
  after_results
  rfl

end Cert.KernelIdeal.Bias

end
-- ==== Proof.KernelValue.lean ====
/-
  The kernel's result array is the rating.

  Grid point `t` writes back the one-column block of rows `2048·t … 2048·t + 2047`.  Row `p` of what it writes is
  the block entry of `KernelRow` at the point's input blocks; those are rows `R = 2048·t + p` of the arrays the
  region finds (`KernelBlocks`), which are the reference's gathered stages and the bias column (`KernelInputs`,
  `KernelBias`); so the entry is the rating of row `R`.  The two points' blocks cover the 4096 rows, hence the
  array after the run is the rating, entry by entry.
-/
import proofs.«407625_j49108656062664_3_alg».proof.Proof.Gen.KernelIdeal.Value
import proofs.«407625_j49108656062664_3_alg».proof.Proof.Rating
import proofs.«407625_j49108656062664_3_alg».proof.Proof.KernelRow
import proofs.«407625_j49108656062664_3_alg».proof.Proof.KernelBlocks
import proofs.«407625_j49108656062664_3_alg».proof.Proof.KernelInputs
import proofs.«407625_j49108656062664_3_alg».proof.Proof.KernelBias

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The rating of batch row `R` at the kernel's arguments: user rows, scaled history sums, item rows (the
    reference's gathered stages read at the kernel's memory), the read-out row, the two gathered biases,
    the read-out bias, the global mean. -/
def resultRow (c : Dev nD) (R : Fin 4096) : EReal :=
  Cert.Rating.rowRating
    (Cert.ReferenceIdeal.Read.val_main_v6 (F := Ideal) (m ((c : Thread nD τ).loc main_arg0)) (m ((c : Thread nD τ).loc main_arg3)))
    (Cert.ReferenceIdeal.Read.val_main_v24 (F := Ideal) (m ((c : Thread nD τ).loc main_arg2)) (m ((c : Thread nD τ).loc main_arg5)))
    (Cert.ReferenceIdeal.Read.val_main_v13 (F := Ideal) (m ((c : Thread nD τ).loc main_arg1)) (m ((c : Thread nD τ).loc main_arg4)))
    (m ((c : Thread nD τ).loc main_arg8))
    (Cert.ReferenceIdeal.Read.val_main_v40 (F := Ideal) (m ((c : Thread nD τ).loc main_arg0)) (m ((c : Thread nD τ).loc main_arg6)))
    (Cert.ReferenceIdeal.Read.val_main_v49 (F := Ideal) (m ((c : Thread nD τ).loc main_arg1)) (m ((c : Thread nD τ).loc main_arg7)))
    (m ((c : Thread nD τ).loc main_arg9) (ix1 (0 : Fin 1))) (Ideal.ofBits .f32 0x40600000#32) R

/-- The whole column of ratings. -/
def result (c : Dev nD) : S4096x1.Idx → EReal := fun i => resultRow m c ⟨(i 0).val, (i 0).isLt⟩

theorem hz : (![0, 0] : Fin 2 → Nat) = fun _ => 0 := funext fun a => by fin_cases a <;> rfl

/-- Row `p` of what point `t` leaves in the output block is the rating of row `2048·t + p`. -/
theorem block_row (c : Dev nD) (t : Fin cfg0.N) (p : Fin 2048) (R : Fin 4096) (hR : R.val = 2048 * t.val + p.val) :
    out0_5 (iblk m c 0 t) (iblk m c 1 t) (iblk m c 2 t) (iblk m c 3 t) (iblk m c 4 t) (ix2 p (0 : Fin 1)) = resultRow m c R := by
  unfold out0_5
  rw [Cert.KernelIdeal.Value.canon5_eq]
  simp only [View.ld_unit_zero (S := S2048x64) hz, View.ld_unit_zero (S := S1x64) hz, View.ld_unit_zero (S := S2048x1) hz]
  refine (Cert.KernelIdeal.Row.block_entry _ _ _ _ _ p).trans ?_
  unfold resultRow Cert.Rating.rowRating
  refine congrArg₂ (· + ·) (Finset.sum_congr rfl fun d _ => ?_) ?_
  · rw [Cert.KernelIdeal.Blocks.user_block m c t p d R hR, Cert.KernelIdeal.Blocks.history_block m c t p d R hR,
      Cert.KernelIdeal.Blocks.item_block m c t p d R hR, Cert.KernelIdeal.Blocks.weight_block m c t d,
      Cert.KernelIdeal.Inputs.user_rows, Cert.KernelIdeal.Inputs.history_rows, Cert.KernelIdeal.Inputs.item_rows, V_main_arg8]
  · rw [Cert.KernelIdeal.Blocks.bias_block m c t p R hR, Cert.KernelIdeal.Bias.bias_column, Cert.KernelIdeal.Bias.column_apply]

/-- What point `t` writes back is the point's block of the rating column. -/
theorem flushed_eq (c : Dev nD) (t : Fin cfg0.N) :
    (dats m 0 c).flushed 5 t = ((cfg0.win 5).blk t).view.read (Elt Ideal) (result m c) := by
  rw [Cert.KernelIdeal.Value.flushed5]
  refine funext fun y => ?_
  have hy0 : (y 0).val < 2048 := (y 0).isLt
  have hy1 : (y 1).val < 1 := (y 1).isLt
  have ht : t.val < 2 := Nat.lt_of_lt_of_eq t.isLt N_0
  obtain ⟨-, -, -, -, -, ⟨e0, -⟩⟩ := Cert.KernelIdeal.Blocks.index_facts t
  have hxy : (cfg0.win 5).xinj (grid0.coords t) y = ix2 (⟨(y 0).val, hy0⟩ : Fin 2048) (0 : Fin 1) :=
    funext fun a => Fin.ext (by
      match a with
      | ⟨0, _⟩ => rfl
      | ⟨1, _⟩ => show (y 1).val = 0; omega)
  show out0_5 (iblk m c 0 t) (iblk m c 1 t) (iblk m c 2 t) (iblk m c 3 t) (iblk m c 4 t) ((cfg0.win 5).xinj (grid0.coords t) y) = _
  rw [hxy, block_row m c t ⟨(y 0).val, hy0⟩ ⟨2048 * t.val + (y 0).val, by omega⟩ rfl, View.read_apply]
  show resultRow m c _ = resultRow m c _
  refine congrArg (resultRow m c) (Fin.ext ?_)
  show 2048 * t.val + (y 0).val = win0_5.index t 0 * 2048 + 1 * (y 0).val
  rw [e0]; omega

/-- The two points' blocks cover the column, so the array after the run is the rating. -/
theorem final (c : Dev nD) : (dats m 0 c).arrAt 5 cfg0.N = result m c :=
  (dats m 0 c).arrAt_eq_of_cover 5 (result m c) (fun t _ => flushed_eq m c t) fun i => by
    have hi0 : (i 0).val < 4096 := (i 0).isLt
    have hi1 : (i 1).val < 1 := (i 1).isLt
    have hN : (i 0).val / 2048 < cfg0.N := Nat.lt_of_lt_of_eq (by omega : (i 0).val / 2048 < 2) N_0.symm
    obtain ⟨-, -, -, -, -, ⟨e0, e1⟩⟩ := Cert.KernelIdeal.Blocks.index_facts ⟨(i 0).val / 2048, hN⟩
    have e0' : win0_5.index ⟨(i 0).val / 2048, hN⟩ 0 = (i 0).val / 2048 := e0
    refine ⟨⟨(i 0).val / 2048, hN⟩, flush0_5 _, ?_⟩
    show i ∈ ((View.whole main_v46).slice (win0_5.rect ⟨(i 0).val / 2048, hN⟩)).set
    rw [View.set_slice_whole, Rect.mem_set_unit]
    intro a
    match a with
    | ⟨0, _⟩ =>
      show win0_5.index ⟨(i 0).val / 2048, hN⟩ 0 * 2048 ≤ (i 0).val ∧ (i 0).val < win0_5.index ⟨(i 0).val / 2048, hN⟩ 0 * 2048 + 2048
      rw [e0']; omega
    | ⟨1, _⟩ =>
      show win0_5.index ⟨(i 0).val / 2048, hN⟩ 1 * 1 ≤ (i 1).val ∧ (i 1).val < win0_5.index ⟨(i 0).val / 2048, hN⟩ 1 * 1 + 1
      rw [e1]; omega

end Cert.KernelIdeal.Final

end
-- ==== Proof.lean ====
/-
  A recommender's rating head: the Pallas kernel against its jnp reference, equal on the extended reals.

  For each of 4096 (user, item) pairs both programs gather the user's and the item's latent vectors (64
  coordinates), sum the latent vectors of the user's 200 history items and divide by √200, and compute

      rating r = (∑ d, (p r d + q r d) · v r d · w d) + bias terms,

  the bias terms being the gathered user bias, the gathered item bias, the read-out bias and the global mean 3.5.
  The kernel receives `p`, `q`, `v`, the read-out row `w` and ONE pre-added bias column, over a grid of two
  points of 2048 rows each, and forms the sum over `d` as a lane reduction; the reference forms it as a matrix
  product with the transposed read-out row and adds the four bias terms one after the other, in another order.
  At the ideal instance a lane reduction and a one-axis contraction are the same finite sum, and the two
  orders of addition agree because `+` on the extended reals is commutative and associative — no finiteness
  of the inputs is used.  The gathers and the history sum are the same operations in both programs and are
  never opened: the arrays the kernel's region finds are the reference's own stages (`Proof/KernelInputs`,
  `Proof/KernelBias`).

  `Proof/Rating` states the rating; `Proof/RefRating` shows the reference computes it; `Proof/KernelRow`,
  `Proof/KernelBlocks` and `Proof/KernelValue` show the kernel's result array is it.  The frames are the generated
  ones; the ideal pass rewrote nothing, so `preserves` is `True`.
-/
import proofs.«407625_j49108656062664_3_alg».proof.Defs
import proofs.«407625_j49108656062664_3_alg».proof.Proof.Gen.Kernel
import proofs.«407625_j49108656062664_3_alg».proof.Proof.Gen.Kernel.Skeleton
import proofs.«407625_j49108656062664_3_alg».proof.Proof.Gen.Kernel.Launch
import proofs.«407625_j49108656062664_3_alg».proof.Proof.Gen.Kernel.Points
import proofs.«407625_j49108656062664_3_alg».proof.Proof.Gen.Kernel.Frame
import proofs.«407625_j49108656062664_3_alg».proof.Proof.Gen.KernelIdeal
import proofs.«407625_j49108656062664_3_alg».proof.Proof.Gen.KernelIdeal.Skeleton
import proofs.«407625_j49108656062664_3_alg».proof.Proof.Gen.KernelIdeal.Launch
import proofs.«407625_j49108656062664_3_alg».proof.Proof.Gen.KernelIdeal.Points
import proofs.«407625_j49108656062664_3_alg».proof.Proof.Gen.KernelIdeal.Frame
import proofs.«407625_j49108656062664_3_alg».proof.Proof.Gen.ReferenceIdeal
import proofs.«407625_j49108656062664_3_alg».proof.Proof.Gen.Pre_finite_inputs
import proofs.«407625_j49108656062664_3_alg».proof.Proof.Gen.KernelIdeal.Value
import proofs.«407625_j49108656062664_3_alg».proof.Proof.Gen.ReferenceIdeal.Run
import proofs.«407625_j49108656062664_3_alg».proof.Proof.Gen.ReferenceIdeal.Read
import proofs.«407625_j49108656062664_3_alg».proof.Proof.RefRating
import proofs.«407625_j49108656062664_3_alg».proof.Proof.KernelValue
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the ten arguments both programs end with the column of ratings: the kernel's
    result array by the cover of its two blocks, the reference's last stage by reading it operation by
    operation and regrouping the bias terms. -/
theorem algebraic : Cert.algebraic_KernelIdeal_ReferenceIdeal := by
  intro m ρ m' ρ' _ hagree
  refine ⟨fun c => Cert.KernelIdeal.Final.result m c, ?_, ?_⟩
  · exact (θ_run Cert.KernelIdeal.defs _ _).mono
      (fun r h c => ⟨(h c).1.trans (Cert.KernelIdeal.Final.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    refine ((Cert.ReferenceIdeal.Read.val_main_v51_eq _ _ _ _ _ _ _ _ _ _).trans
      (Cert.ReferenceIdeal.RefValue.ref_is_rating _ _ _ _ _ _ _ _ _ _)).trans ?_
    rw [h0, h1, h2, h3, h4, h5, h6, h7, h8, h9]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
